-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x400x512 : Shape := ⟨3, ![4, 400, 512]⟩
abbrev S4 : Shape := ⟨1, ![4]⟩
abbrev S4x100x512 : Shape := ⟨3, ![4, 100, 512]⟩
abbrev S1024x512 : Shape := ⟨2, ![1024, 512]⟩
abbrev S1024 : Shape := ⟨1, ![1024]⟩
abbrev S_ : Shape := ⟨0, ![]⟩

class Facts : Prop where
  bcast_S_S4x400x512 : S_.BroadcastsInDim S4x400x512 (![] : Fin 0 → Fin S4x400x512.rank)
  reducesTo_S4x400x512_S_d0_1_2 : S4x400x512.ReducesTo [0, 1, 2] S_
  h_S_ : 0 < S_.numel
  bcast_S_S4x100x512 : S_.BroadcastsInDim S4x100x512 (![] : Fin 0 → Fin S4x100x512.rank)
  reducesTo_S4x100x512_S_d0_1_2 : S4x100x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x400x512 .f32) (main_arg1 : IVec S4 32) (main_arg2 : FVec F S4x100x512 .f32) (main_arg3 : IVec S4 32) (main_arg4 : FVec F S1024x512 .f32) (main_arg5 : FVec F S1024 .f32) : IVec S_ 1 :=
  let main_v0 : FVec F S4x400x512 .f32 := Host.absf main_arg0
  let main_cst : FVec F S_ .f32 := constant S_ .f32 0x7F800000#32
  let main_v1 : FVec F S4x400x512 .f32 := broadcastInDim S4x400x512 ![] bcast_S_S4x400x512 main_cst
  let main_v2 : IVec S4x400x512 1 := cmpf .olt main_v0 main_v1
  let main_c : IVec S_ 1 := constantI S_ 1 1#1
  let main_v3 : IVec S_ 1 := (fun x v => Host.reduce IntOp.andi x v reducesTo_S4x400x512_S_d0_1_2 h_S_) main_v2 main_c
  let main_v4 : FVec F S4x100x512 .f32 := Host.absf main_arg2
  let main_cst_0 : FVec F S_ .f32 := constant S_ .f32 0x7F800000#32
  let main_v5 : FVec F S4x100x512 .f32 := broadcastInDim S4x100x512 ![] bcast_S_S4x100x512 main_cst_0
  let main_v6 : IVec S4x100x512 1 := cmpf .olt main_v4 main_v5
  let main_c_1 : IVec S_ 1 := constantI S_ 1 1#1
  let main_v7 : IVec S_ 1 := (fun x v => Host.reduce IntOp.andi x v reducesTo_S4x100x512_S_d0_1_2 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x400x512 : Shape := ⟨3, ![4, 400, 512]⟩
abbrev S4 : Shape := ⟨1, ![4]⟩
abbrev S4x100x512 : Shape := ⟨3, ![4, 100, 512]⟩
abbrev S1024x512 : Shape := ⟨2, ![1024, 512]⟩
abbrev S1024 : Shape := ⟨1, ![1024]⟩
abbrev S_ : Shape := ⟨0, ![]⟩
abbrev S4x104x512 : Shape := ⟨3, ![4, 104, 512]⟩
abbrev S512x1024 : Shape := ⟨2, ![512, 1024]⟩
abbrev S1x1024 : Shape := ⟨2, ![1, 1024]⟩
abbrev S4x400x100x1024 : Shape := ⟨4, ![4, 400, 100, 1024]⟩
abbrev S1x16x512 : Shape := ⟨3, ![1, 16, 512]⟩
abbrev S1x104x512 : Shape := ⟨3, ![1, 104, 512]⟩
abbrev S1x16x104x1024 : Shape := ⟨4, ![1, 16, 104, 1024]⟩
abbrev S16x512 : Shape := ⟨2, ![16, 512]⟩
abbrev S104x512 : Shape := ⟨2, ![104, 512]⟩
abbrev S16x1x512 : Shape := ⟨3, ![16, 1, 512]⟩
abbrev S16x104x512 : Shape := ⟨3, ![16, 104, 512]⟩
abbrev S1664x512 : Shape := ⟨2, ![1664, 512]⟩
abbrev S1664x1024 : Shape := ⟨2, ![1664, 1024]⟩
abbrev S16x104x1024 : Shape := ⟨3, ![16, 104, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4x400x512, .f32⟩
  | .hbm, ⟨1, _⟩ => ⟨S4, .i32⟩
  | .hbm, ⟨2, _⟩ => ⟨S4x100x512, .f32⟩
  | .hbm, ⟨3, _⟩ => ⟨S4, .i32⟩
  | .hbm, ⟨4, _⟩ => ⟨S1024x512, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S4x104x512, .f32⟩
  | .hbm, ⟨9, _⟩ => ⟨S512x1024, .f32⟩
  | .hbm, ⟨10, _⟩ => ⟨S512x1024, .bf16⟩
  | .hbm, ⟨11, _⟩ => ⟨S1x1024, .f32⟩
  | .hbm, ⟨12, _⟩ => ⟨S4x400x100x1024, .f32⟩
  | .local _ .vmem, ⟨0, _⟩ => ⟨S1x16x512, .f32⟩
  | .local _ .vmem, ⟨1, _⟩ => ⟨S1x16x512, .f32⟩
  | .local _ .vmem, ⟨2, _⟩ => ⟨S1x104x512, .f32⟩
  | .local _ .vmem, ⟨3, _⟩ => ⟨S1x104x512, .f32⟩
  | .local _ .vmem, ⟨4, _⟩ => ⟨S512x1024, .bf16⟩
  | .local _ .vmem, ⟨5, _⟩ => ⟨S1x1024, .f32⟩
  | .local _ .vmem, ⟨6, _⟩ => ⟨S1x16x104x1024, .f32⟩
  | .local _ .vmem, ⟨7, _⟩ => ⟨S1x16x104x1024, .f32⟩
  | _, _ => ⟨S4x400x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x104x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x104x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S4x100x512_S4x104x512_000_040_000 : S4x100x512.Pads (![0, 0, 0] : Fin 3 → Nat) ![0, 4, 0] ![0, 0, 0] S4x104x512
  h_S_ : 0 < S_.numel
  transposes_S1024x512_S512x1024_1_0 : S1024x512.Transposes [1, 0] S512x1024
  bitsLt_bf16_f32 : FTy.bits .bf16 < FTy.bits .f32
  shapeCasts_S1024_S1x1024 : S1024.ShapeCasts S1x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x104x512_S1x104x512_0_0_0 : ∀ a, (![0, 0, 0] : Fin 3 → Nat) a + S1x104x512.size a ≤ S1x104x512.size a
  h_S1x104x512 : 0 < S1x104x512.numel
  shapeCasts_S1x104x512_S104x512 : S1x104x512.ShapeCasts S104x512
  shapeCasts_S16x512_S16x1x512 : S16x512.ShapeCasts S16x1x512
  shapeCasts_S104x512_S1x104x512 : S104x512.ShapeCasts S1x104x512
  broadcasts_S16x1x512_S16x104x512 : S16x1x512.Broadcasts S16x104x512
  broadcasts_S1x104x512_S16x104x512 : S1x104x512.Broadcasts S16x104x512
  shapeCasts_S16x104x512_S1664x512 : S16x104x512.ShapeCasts S1664x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1664x1024 : S1x1024.Broadcasts S1664x1024
  shapeCasts_S1664x1024_S16x104x1024 : S1664x1024.ShapeCasts S16x104x1024
  inb_S1x16x104x1024_S1x16x104x1024_0_0_0_0 : ∀ a, (![0, 0, 0, 0] : Fin 4 → Nat) a + S1x16x104x1024.size a ≤ S1x16x104x1024.size a
  h_S1x16x104x1024 : 0 < S1x16x104x1024.numel
  shapeCasts_S1x16x104x1024_S16x104x1024 : S1x16x104x1024.ShapeCasts S16x104x1024
  shapeCasts_S16x104x1024_S1x16x104x1024 : S16x104x1024.ShapeCasts S1x16x104x1024
  dot_S1664x512_S512x1024_S1664x1024_1_0_0_1_n_n_wf : DotDims.WF S1664x512 S512x1024 S1664x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x400x512.size a
  hwx0_0 : ∀ i : grid0.Coords, EltTy.bits .f32 = 32 ∨ (Rect.block (s := S4x400x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x104x512.size a ≤ S4x104x512.size a
  hwx0_1 : ∀ i : grid0.Coords, EltTy.bits .f32 = 32 ∨ (Rect.block (s := S4x104x512) S1x104x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x16x104x1024.size a < S4x400x100x1024.size a
  hwx0_4 : ∀ i : grid0.Coords, EltTy.bits .f32 = 32 ∨ (Rect.unit (s := S4x400x100x1024) (fun a => cc0_transform_4 i a * S1x16x104x1024.size a) (fun a => (Pipeline.Clip.of (cc0_transform_4 i a) (S1x16x104x1024.size a) (S4x400x100x1024.size a)).extent (S1x16x104x1024.size a)) fun a => Pipeline.Clip.inb (Pipeline.Clip.ok_of (hstart0_4 i a))).WholeWords (EltTy.packing .f32)
  hwxs0_4 : ∀ i : grid0.Coords, EltTy.bits .f32 = 32 ∨ (Rect.unit (s := S1x16x104x1024) (fun _ => 0) (fun a => (Pipeline.Clip.of (cc0_transform_4 i a) (S1x16x104x1024.size a) (S4x400x100x1024.size a)).extent (S1x16x104x1024.size a)) fun a => (Nat.zero_add _).trans_le (Pipeline.Clip.extent_le (Pipeline.Clip.ok_of (hstart0_4 i a)))).WholeWords (EltTy.packing .f32)

variable [Facts₀]

def dot_S1664x512_S512x1024_S1664x1024_1_0_0_1_n_n : DotDims S1664x512 S512x1024 S1664x1024 where
  lhsContracting := [1]
  rhsContracting := [0]
  lhsNonContracting := [0]
  rhsNonContracting := [1]
  lhsBatch := []
  rhsBatch := []
  wf := dot_S1664x512_S512x1024_S1664x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x104x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v4) S1x16x104x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x400x512 : Shape := ⟨3, ![4, 400, 512]⟩
abbrev S4 : Shape := ⟨1, ![4]⟩
abbrev S4x100x512 : Shape := ⟨3, ![4, 100, 512]⟩
abbrev S1024x512 : Shape := ⟨2, ![1024, 512]⟩
abbrev S1024 : Shape := ⟨1, ![1024]⟩
abbrev S4x400x1x512 : Shape := ⟨4, ![4, 400, 1, 512]⟩
abbrev S4x1x100x512 : Shape := ⟨4, ![4, 1, 100, 512]⟩
abbrev S4x400x100x512 : Shape := ⟨4, ![4, 400, 100, 512]⟩
abbrev S4x400x100x1024 : Shape := ⟨4, ![4, 400, 100, 1024]⟩
abbrev S1x1x1x1024 : Shape := ⟨4, ![1, 1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x400x512, .f32⟩
  | .hbm, ⟨1, _⟩ => ⟨S4, .i32⟩
  | .hbm, ⟨2, _⟩ => ⟨S4x100x512, .f32⟩
  | .hbm, ⟨3, _⟩ => ⟨S4, .i32⟩
  | .hbm, ⟨4, _⟩ => ⟨S1024x512, .f32⟩
  | .hbm, ⟨5, _⟩ => ⟨S1024, .f32⟩
  | .hbm, ⟨6, _⟩ => ⟨S4x400x1x512, .f32⟩
  | .hbm, ⟨7, _⟩ => ⟨S4x1x100x512, .f32⟩
  | .hbm, ⟨8, _⟩ => ⟨S4x400x100x512, .f32⟩
  | .hbm, ⟨9, _⟩ => ⟨S4x400x100x512, .f32⟩
  | .hbm, ⟨10, _⟩ => ⟨S4x400x100x512, .f32⟩
  | .hbm, ⟨11, _⟩ => ⟨S4x400x100x512, .f32⟩
  | .hbm, ⟨12, _⟩ => ⟨S4x400x100x1024, .f32⟩
  | .hbm, ⟨13, _⟩ => ⟨S1x1x1x1024, .f32⟩
  | .hbm, ⟨14, _⟩ => ⟨S4x400x100x1024, .f32⟩
  | .hbm, ⟨15, _⟩ => ⟨S4x400x100x1024, .f32⟩
  | _, _ => ⟨S4x400x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S4x400x512_S4x400x1x512_0_1_3 : S4x400x512.BroadcastsInDim S4x400x1x512 (![0, 1, 3] : Fin 3 → Fin S4x400x1x512.rank)
  bcast_S4x100x512_S4x1x100x512_0_2_3 : S4x100x512.BroadcastsInDim S4x1x100x512 (![0, 2, 3] : Fin 3 → Fin S4x1x100x512.rank)
  bcast_S4x400x1x512_S4x400x100x512_0_1_2_3 : S4x400x1x512.BroadcastsInDim S4x400x100x512 (![0, 1, 2, 3] : Fin 4 → Fin S4x400x100x512.rank)
  bcast_S4x1x100x512_S4x400x100x512_0_1_2_3 : S4x1x100x512.BroadcastsInDim S4x400x100x512 (![0, 1, 2, 3] : Fin 4 → Fin S4x400x100x512.rank)
  bcast_S1024_S1x1x1x1024_3 : S1024.BroadcastsInDim S1x1x1x1024 (![3] : Fin 1 → Fin S1x1x1x1024.rank)
  bcast_S1x1x1x1024_S4x400x100x1024_0_1_2_3 : S1x1x1x1024.BroadcastsInDim S4x400x100x1024 (![0, 1, 2, 3] : Fin 4 → Fin S4x400x100x1024.rank)
  dot_S4x400x100x512_S1024x512_S4x400x100x1024_3_1_012_0_n_n_wf : DotDims.WF S4x400x100x512 S1024x512 S4x400x100x1024 [3] [1] [0, 1, 2] [0] [] []

variable [Facts₀]

def dot_S4x400x100x512_S1024x512_S4x400x100x1024_3_1_012_0_n_n : DotDims S4x400x100x512 S1024x512 S4x400x100x1024 where
  lhsContracting := [3]
  rhsContracting := [1]
  lhsNonContracting := [0, 1, 2]
  rhsNonContracting := [0]
  lhsBatch := []
  rhsBatch := []
  wf := dot_S4x400x100x512_S1024x512_S4x400x100x1024_3_1_012_0_n_n_wf

class Facts : Prop extends Facts₀ where

variable [Facts]
-- ==== Proof.Joint.lean ====
/-
  The joint network of a transducer, as one function of its four float arguments.

  For a batch entry `p`, an encoder frame `q`, a predictor step `u` and a vocabulary entry `v`,

      joint p q u v = (∑ k < 512, tanh (src[p, q, k] + tgt[p, u, k]) · W[v, k]) + b[v]

  on the extended reals: every source frame is added to every target step, squashed by `tanh`, and
  projected by the rows of `W` with the bias `b` added. Nothing in this file mentions a program.
-/
import Idealize.ShloMosaic.PureOps.Ideal
import Idealize.ShloMosaic.Lib.ValueIdx

noncomputable section

namespace Cert.Joiner

open Idealize.ShloMosaic Idealize.ShloMosaic.ValueIdx

/-- The shapes of the four float arguments and of the result. -/
abbrev Src : Shape := ⟨3, ![4, 400, 512]⟩
abbrev Tgt : Shape := ⟨3, ![4, 100, 512]⟩
abbrev Wt : Shape := ⟨2, ![1024, 512]⟩
abbrev Bias : Shape := ⟨1, ![1024]⟩
abbrev Out : Shape := ⟨4, ![4, 400, 100, 1024]⟩

/-- The joint network at the coordinates `(p, q, u, v)`: the `tanh` of the sum of source frame `q` and
    target step `u` of batch entry `p`, contracted over the 512 features with row `v` of `W`, plus `b v`. -/
def jointAt (src : Src.Idx → EReal) (tgt : Tgt.Idx → EReal) (W : Wt.Idx → EReal) (b : Bias.Idx → EReal)
    (p : Fin 4) (q : Fin 400) (u : Fin 100) (v : Fin 1024) : EReal :=
  (∑ k : Fin 512, Ideal.tanh (src (ix3 p q k) + tgt (ix3 p u k)) * W (ix2 v k)) + b (ix1 v)

/-- The whole result array: `jointAt` at an index's four coordinates. -/
def joint (src : Src.Idx → EReal) (tgt : Tgt.Idx → EReal) (W : Wt.Idx → EReal) (b : Bias.Idx → EReal) :
    Out.Idx → EReal :=
  fun i => jointAt src tgt W b (i 0) (i 1) (i 2) (i 3)

theorem joint_ix4 (src : Src.Idx → EReal) (tgt : Tgt.Idx → EReal) (W : Wt.Idx → EReal) (b : Bias.Idx → EReal)
    (p : Fin 4) (q : Fin 400) (u : Fin 100) (v : Fin 1024) :
    joint src tgt W b (ix4 p q u v) = jointAt src tgt W b p q u v := rfl

end Cert.Joiner

end
-- ==== Proof.RefJoint.lean ====
/-
  The reference program computes the joint network.

  Read one operation at a time, the reference broadcasts the source frames along the target axis and the
  target steps along the source axis, adds them, applies `tanh`, contracts the feature axis with `W`'s
  second axis, and adds the bias broadcast over the three leading axes. At an index `(p, q, u, v)` that is
  `(∑ k, tanh (src[p, q, k] + tgt[p, u, k]) · W[v, k]) + b[v]`: the function `Cert.Joiner.joint`.
-/
import proofs.«414970_j11940009083043_3_alg».proof.Proof.Gen.ReferenceIdeal.Read
import proofs.«414970_j11940009083043_3_alg».proof.Proof.Joint

noncomputable section

namespace Cert.Joiner.Ref

open Idealize.ShloMosaic Idealize.ShloMosaic.ValueIdx
open Cert.ReferenceIdeal Cert.ReferenceIdeal.Read

/-- The source index the two broadcasts and the contraction read at `(i, k)`: batch and frame of `i`, feature `k`. -/
theorem src_idx (i : S4x400x100x1024.Idx) (k : Fin 512) :
    idx_main_v0 (idx_main_v2 (lidx_main_v6 i k)) = ix3 (i 0) (i 1) k :=
  funext fun a => Fin.ext (by match a with | ⟨0, _⟩ => rfl | ⟨1, _⟩ => rfl | ⟨2, _⟩ => rfl)

/-- The target index likewise: batch and step of `i`, feature `k`. -/
theorem tgt_idx (i : S4x400x100x1024.Idx) (k : Fin 512) :
    idx_main_v1 (idx_main_v3 (lidx_main_v6 i k)) = ix3 (i 0) (i 2) k :=
  funext fun a => Fin.ext (by match a with | ⟨0, _⟩ => rfl | ⟨1, _⟩ => rfl | ⟨2, _⟩ => rfl)

/-- The weight index: row `i 3`, feature `k`. -/
theorem w_idx (i : S4x400x100x1024.Idx) (k : Fin 512) : ridx_main_v6 i k = ix2 (i 3) k :=
  funext fun a => Fin.ext (by match a with | ⟨0, _⟩ => rfl | ⟨1, _⟩ => rfl)

/-- The bias index: entry `i 3`. -/
theorem b_idx (i : S4x400x100x1024.Idx) : idx_main_v7 (idx_main_v8 i) = ix1 (i 3) :=
  funext fun a => Fin.ext (by match a with | ⟨0, _⟩ => rfl)

/-- The reference's result, as a function of its four float arguments, is the joint network. -/
theorem val_eq_joint (x0 : Src.Idx → EReal) (x2 : Tgt.Idx → EReal) (x4 : Wt.Idx → EReal) (x5 : Bias.Idx → EReal) :
    val_main_v9 (F := Ideal) x0 x2 x4 x5 = joint x0 x2 x4 x5 := by
  funext i
  rw [val_main_v9_apply, val_main_v6_apply, val_main_v8_apply, val_main_v7_apply, b_idx]
  simp only [val_main_v5_apply, val_main_v4_apply, val_main_v2_apply, val_main_v0_apply, val_main_v3_apply,
    val_main_v1_apply, src_idx, tgt_idx, w_idx, Ideal.addf_def, Ideal.hostUnary_tanh_def]
  rfl

end Cert.Joiner.Ref

end
-- ==== Proof.Body.lean ====
/-
  What the kernel body stores, read at an index.

  At a grid point the body holds a block of 16 source frames `x0 : [1, 16, 512]`, the 104 padded target
  steps `x1 : [1, 104, 512]` of the point's batch entry, the transposed weights `x2 : [512, 1024]` and the bias
  row `x3 : [1, 1024]`. It broadcasts the frames against the steps, adds, takes `tanh`, flattens the
  (frame, step) pairs to 1664 rows — pair `(q, u)` is row `q · 104 + u` —, multiplies by `x2` into a zero
  accumulator, adds the bias row, and unflattens. So the stored block at `(0, q, u, v)` is

      (∑ k < 512, tanh (x0[0, q, k] + x1[0, u, k]) · x2[k, v]) + x3[0, v].
-/
import proofs.«414970_j11940009083043_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Joiner.Body

open Idealize.ShloMosaic Idealize.ShloMosaic.ValueIdx
open Cert.KernelIdeal Cert.KernelIdeal.Gen

variable {α : Type}

/-! ## The layout steps, each at explicit coordinates -/

/-- Row `q · 104 + u` of the flattened pairs. -/
abbrev pairRow (q : Fin 16) (u : Fin 104) : Fin 1664 := ⟨q.val * 104 + u.val, by have := q.isLt; have := u.isLt; omega⟩

/-- The source block with its unit axis moved to the middle and broadcast over the 104 steps reads, at
    `(q, u, k)`, frame `q`'s feature `k`. -/
theorem frames_at (x0 : S1x16x512.Idx → α) (q : Fin 16) (u : Fin 104) (k : Fin 512) :
    broadcastTo S16x104x512 (shapeCast S16x1x512 (shapeCast S16x512 x0 Facts₀.shapeCasts_S1x16x512_S16x512)
      Facts₀.shapeCasts_S16x512_S16x1x512) Facts₀.broadcasts_S16x1x512_S16x104x512 (ix3 q u k) = x0 (ix3 (0 : Fin 1) q k) := by
  refine (broadcastTo_apply _ _ (ix3 q u k) (ix3 q (0 : Fin 1) k) fun a => ?_).trans ?_
  · match a with
    | ⟨0, _⟩ => rfl
    | ⟨1, _⟩ => rfl
    | ⟨2, _⟩ => rfl
  refine (shapeCast_apply _ _ (ix3 q (0 : Fin 1) k) (ix2 q k) ?_).trans ?_
  · rw [Shape.rowMajor_val_three, Shape.rowMajor_val_two]
    show q.val * 512 + k.val = (q.val * 1 + 0) * 512 + k.val
    omega
  exact shapeCast_1ab_ab_apply x0 _ q k

/-- The target block broadcast over the 16 frames reads, at `(q, u, k)`, step `u`'s feature `k`. -/
theorem steps_at (x1 : S1x104x512.Idx → α) (q : Fin 16) (u : Fin 104) (k : Fin 512) :
    broadcastTo S16x104x512 (shapeCast S1x104x512 (shapeCast S104x512 x1 Facts₀.shapeCasts_S1x104x512_S104x512)
      Facts₀.shapeCasts_S104x512_S1x104x512) Facts₀.broadcasts_S1x104x512_S16x104x512 (ix3 q u k) = x1 (ix3 (0 : Fin 1) u k) := by
  refine (broadcastTo_apply _ _ (ix3 q u k) (ix3 (0 : Fin 1) u k) fun a => ?_).trans ?_
  · match a with
    | ⟨0, _⟩ => rfl
    | ⟨1, _⟩ => rfl
    | ⟨2, _⟩ => rfl
  rw [shapeCast_shapeCast]

/-- The flattening of the pairs: row `q · 104 + u`, feature `k`, is the entry at `(q, u, k)`. -/
theorem flat_at (X : S16x104x512.Idx → α) (q : Fin 16) (u : Fin 104) (k : Fin 512) :
    shapeCast S1664x512 X Facts₀.shapeCasts_S16x104x512_S1664x512 (ix2 (pairRow q u) k) = X (ix3 q u k) :=
  shapeCast_apply _ _ _ _ (by
    rw [Shape.rowMajor_val_three, Shape.rowMajor_val_two]
    show (q.val * 104 + u.val) * 512 + k.val = (q.val * 104 + u.val) * 512 + k.val
    rfl)

/-- The unflattening of the product, with the block's unit axis put back: `(0, q, u, v)` is row `q · 104 + u`,
    column `v`. -/
theorem unflat_at (Y : S1664x1024.Idx → α) (q : Fin 16) (u : Fin 104) (v : Fin 1024) :
    shapeCast S1x16x104x1024 (shapeCast S16x104x1024 Y Facts₀.shapeCasts_S1664x1024_S16x104x1024)
      Facts₀.shapeCasts_S16x104x1024_S1x16x104x1024 (ix4 (0 : Fin 1) q u v) = Y (ix2 (pairRow q u) v) := by
  refine (shapeCast_abc_1abc_apply _ _ (0 : Fin 1) q u v).trans ?_
  exact shapeCast_apply _ _ _ _ (by
    rw [Shape.rowMajor_val_three, Shape.rowMajor_val_two]
    show (q.val * 104 + u.val) * 1024 + v.val = (q.val * 104 + u.val) * 1024 + v.val
    rfl)

/-- The bias row broadcast over the 1664 rows reads, at `(r, v)`, the row's entry `v`. -/
theorem bias_at (x3 : S1x1024.Idx → α) (r : Fin 1664) (v : Fin 1024) :
    broadcastTo S1664x1024 (shapeCast S1x1024 x3 Facts₀.shapeCasts_S1x1024_S1x1024) Facts₀.broadcasts_S1x1024_S1664x1024 (ix2 r v)
      = x3 (ix2 (0 : Fin 1) v) := by
  rw [broadcastTo_1b_ab_apply, shapeCast_self]

/-! ## The product -/

theorem lhs_0 (j : S1664x1024.Idx) (q : dot_S1664x512_S512x1024_S1664x1024_1_0_0_1_n_n.contr.Idx) :
    (dot_S1664x512_S512x1024_S1664x1024_1_0_0_1_n_n.lhsIdx j q 0).val = (j 0).val := by
  unfold DotDims.lhsIdx
  rw [dif_neg (show ¬(0 : Fin S1664x512.rank) ∈ dot_S1664x512_S512x1024_S1664x1024_1_0_0_1_n_n.lhsBatch by decide), dif_pos (show (0 : Fin S1664x512.rank) ∈ dot_S1664x512_S512x1024_S1664x1024_1_0_0_1_n_n.lhsNonContracting by decide)]
  rfl
theorem lhs_1 (j : S1664x1024.Idx) (q : dot_S1664x512_S512x1024_S1664x1024_1_0_0_1_n_n.contr.Idx) :
    (dot_S1664x512_S512x1024_S1664x1024_1_0_0_1_n_n.lhsIdx j q 1).val = (q ⟨0, by decide⟩).val :=
  dot_S1664x512_S512x1024_S1664x1024_1_0_0_1_n_n.lhsIdx_val_of_single rfl j q
theorem rhs_0 (j : S1664x1024.Idx) (q : dot_S1664x512_S512x1024_S1664x1024_1_0_0_1_n_n.contr.Idx) :
    (dot_S1664x512_S512x1024_S1664x1024_1_0_0_1_n_n.rhsIdx j q 0).val = (q ⟨0, by decide⟩).val :=
  dot_S1664x512_S512x1024_S1664x1024_1_0_0_1_n_n.rhsIdx_val_of_single rfl j q
theorem rhs_1 (j : S1664x1024.Idx) (q : dot_S1664x512_S512x1024_S1664x1024_1_0_0_1_n_n.contr.Idx) :
    (dot_S1664x512_S512x1024_S1664x1024_1_0_0_1_n_n.rhsIdx j q 1).val = (j 1).val := by
  unfold DotDims.rhsIdx
  rw [dif_neg (show ¬(1 : Fin S512x1024.rank) ∈ dot_S1664x512_S512x1024_S1664x1024_1_0_0_1_n_n.rhsBatch by decide), dif_pos (show (1 : Fin S512x1024.rank) ∈ dot_S1664x512_S512x1024_S1664x1024_1_0_0_1_n_n.rhsNonContracting by decide)]
  rfl

/-- The matrix product into a zero accumulator, on the extended reals, at `(r, v)`: the sum over the 512
    features of row `r` of the left factor times column `v` of the right. -/
theorem product_at (A : FVec Ideal S1664x512 .bf16) (B : FVec Ideal S512x1024 .bf16) (r : Fin 1664) (v : Fin 1024) :
    matmul dot_S1664x512_S512x1024_S1664x1024_1_0_0_1_n_n none A B (constant S1664x1024 .f32 0x00000000#32) (ix2 r v)
      = ∑ k : Fin 512, A (ix2 r k) * B (ix2 k v) := by
  simp only [matmul]
  rw [Ideal.matmul_constant_zero_apply, ← Equiv.sum_comp (contrEquiv1 dot_S1664x512_S512x1024_S1664x1024_1_0_0_1_n_n 512 rfl rfl).symm]
  refine Finset.sum_congr rfl fun k _ => ?_
  have hk := contrEquiv1_symm_val dot_S1664x512_S512x1024_S1664x1024_1_0_0_1_n_n 512 rfl rfl k
  have el : dot_S1664x512_S512x1024_S1664x1024_1_0_0_1_n_n.lhsIdx (ix2 r v) ((contrEquiv1 dot_S1664x512_S512x1024_S1664x1024_1_0_0_1_n_n 512 rfl rfl).symm k) = ix2 r k := funext fun a => Fin.ext (by
    match a with
    | ⟨0, _⟩ => exact lhs_0 _ _
    | ⟨1, _⟩ => exact (lhs_1 _ _).trans hk)
  have er : dot_S1664x512_S512x1024_S1664x1024_1_0_0_1_n_n.rhsIdx (ix2 r v) ((contrEquiv1 dot_S1664x512_S512x1024_S1664x1024_1_0_0_1_n_n 512 rfl rfl).symm k) = ix2 k v := funext fun a => Fin.ext (by
    match a with
    | ⟨0, _⟩ => exact (rhs_0 _ _).trans hk
    | ⟨1, _⟩ => exact rhs_1 _ _)
  rw [el, er]

/-! ## The stored block -/

/-- The lane-wise `tanh` at an index, on the extended reals. -/
theorem tanh_at {s : Shape} {φ : FTy} (X : FVec Ideal s φ) (i : s.Idx) : tanh X i = Ideal.tanh (X i) := rfl

/-- The body's one store, at `(0, q, u, v)`. -/
theorem stored_at (x0 : Vec Ideal S1x16x512 .f32) (x1 : Vec Ideal S1x104x512 .f32) (x2 : Vec Ideal S512x1024 .bf16)
    (x3 : Vec Ideal S1x1024 .f32) (q : Fin 16) (u : Fin 104) (v : Fin 1024) :
    k0_pay1 (F := Ideal) x0 x1 x2 x3 (ix4 (0 : Fin 1) q u v)
      = (∑ k : Fin 512, Ideal.tanh (x0 (ix3 (0 : Fin 1) q k) + x1 (ix3 (0 : Fin 1) u k)) * x2 (ix2 k v)) + x3 (ix2 (0 : Fin 1) v) := by
  unfold k0_pay1
  rw [unflat_at, addf_apply, bias_at, product_at]
  refine congrArg (· + x3 (ix2 (0 : Fin 1) v)) (Finset.sum_congr rfl fun k _ => ?_)
  rw [flat_at, truncf_apply, shapeCast_self]
  rw [tanh_at, addf_apply, frames_at, steps_at]

end Cert.Joiner.Body

end
-- ==== Proof.Entry.lean ====
/-
  The arrays the kernel's region finds, as functions of the program's arguments.

  Before the region the program pads the target steps with four zero steps (100 to 104), transposes the
  weights to `[512, 1024]` and narrows them to bf16 — the identity on the extended reals —, and reshapes the
  bias to one row. Read at an index:
    • the padded target at step `u < 100` is the target at `u` (the four pad steps are never needed);
    • the transposed weights at `(k, v)` are `W[v, k]`;
    • the bias row at `(0, v)` is `b[v]`.
-/
import proofs.«414970_j11940009083043_3_alg».proof.Proof.Gen.KernelIdeal.Frame
import Idealize.ShloMosaic.Lib.StableHlo.Run
import Idealize.ShloMosaic.Lib.ValueLayout
import Idealize.ShloMosaic.Lib.KernelVsHost

noncomputable section

namespace Cert.Joiner.Entry

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The target array, the weights and the bias as launched, at their literal types. -/
abbrev tgtArg (c : Dev nD) : S4x100x512.Idx → EReal := m ((c : Thread nD τ).loc main_arg2)
abbrev wArg (c : Dev nD) : S1024x512.Idx → EReal := m ((c : Thread nD τ).loc main_arg4)
abbrev bArg (c : Dev nD) : S1024.Idx → EReal := m ((c : Thread nD τ).loc main_arg5)

/-- The padded target steps as the region finds them. -/
theorem padded_eq (c : Dev nD) :
    V m c main_v0 = pad S4x104x512 ![0, 0, 0] ![0, 4, 0] ![0, 0, 0] (tgtArg m c)
      (sitofp (F := Ideal) .f32 (constantI S_ 32 0#32)) Facts₀.pads_S4x100x512_S4x104x512_000_040_000 Facts₀.h_S_ := by
  dsimp only [V]
  simp only [hostOps0, hostOps0_1, hostOps0_2, List.flatten_cons, List.flatten_nil, List.append_nil, List.cons_append, List.nil_append]
  after_results
  rfl

/-- The transposed, narrowed weights as the region finds them. -/
theorem weights_eq (c : Dev nD) :
    V m c main_v2 = truncf (F := Ideal) .bf16 (transpose S512x1024 [1, 0] (wArg m c) Facts₀.transposes_S1024x512_S512x1024_1_0) Facts₀.bitsLt_bf16_f32 := by
  dsimp only [V]
  simp only [hostOps0, hostOps0_1, hostOps0_2, List.flatten_cons, List.flatten_nil, List.append_nil, List.cons_append, List.nil_append]
  after_results

/-- The bias row as the region finds it. -/
theorem biasRow_eq (c : Dev nD) :
    V m c main_v3 = shapeCast S1x1024 (bArg m c) Facts₀.shapeCasts_S1024_S1x1024 := by
  dsimp only [V]
  simp only [hostOps0, hostOps0_1, hostOps0_2, List.flatten_cons, List.flatten_nil, List.append_nil, List.cons_append, List.nil_append]
  after_results
  rfl

/-- The padded target at a step below 100 is the target there. -/
theorem padded_at (c : Dev nD) (p : Fin 4) (u : Fin 100) (k : Fin 512) :
    V m c main_v0 (ix3 p (⟨u.val, by have := u.isLt; omega⟩ : Fin 104) k) = tgtArg m c (ix3 p u k) := by
  rw [padded_eq]
  exact pad_apply_of_inside _ _ _ _ _ _ _ _ (ix3 p u k) fun a => by
    match a with
    | ⟨0, _⟩ => show p.val = 0 + p.val * (0 + 1); omega
    | ⟨1, _⟩ => show u.val = 0 + u.val * (0 + 1); omega
    | ⟨2, _⟩ => show k.val = 0 + k.val * (0 + 1); omega

/-- The transposed weights at `(k, v)` are the weights at `(v, k)`. -/
theorem weights_at (c : Dev nD) (k : Fin 512) (v : Fin 1024) :
    V m c main_v2 (ix2 k v) = wArg m c (ix2 v k) := by
  rw [weights_eq, truncf_apply]
  exact transpose_ix2_apply _ _ k v

/-- The bias row at `(0, v)` is the bias at `v`. -/
theorem biasRow_at (c : Dev nD) (v : Fin 1024) :
    V m c main_v3 (ix2 (0 : Fin 1) v) = bArg m c (ix1 v) := by
  rw [biasRow_eq]
  exact shapeCast_a_1a_apply _ _ (0 : Fin 1) v

end Cert.Joiner.Entry

end
-- ==== Proof.Blocks.lean ====
/-
  From the blocks to the array: after the kernel's run the result array holds the joint network.

  The grid has a point for every batch entry `p < 4` and every tile `T < 25` of 16 source frames. At the point
  `(p, T)` the body is handed frames `16 T … 16 T + 15` of entry `p`, the 104 padded target steps of entry `p`,
  all the transposed weights and the bias row, and its result block `[1, 16, 104, 1024]` is written back to frames
  `16 T …` of entry `p` of the result — cut at the result's 100 steps: the four rows computed from the pad steps
  are not written. So what a point writes back is its block of ONE whole-array function, the joint network of
  the arguments (`flushed_eq`); the blocks cover the result (`covered`: index `(p, q, u, v)` is under the point
  `(p, q / 16)`); hence the array ends holding that function (`final`, `run`).
-/
import proofs.«414970_j11940009083043_3_alg».proof.Proof.Gen.KernelIdeal.Value
import proofs.«414970_j11940009083043_3_alg».proof.Proof.Joint
import proofs.«414970_j11940009083043_3_alg».proof.Proof.Body
import proofs.«414970_j11940009083043_3_alg».proof.Proof.Entry

set_option maxRecDepth 16384

noncomputable section

namespace Cert.Joiner.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

/-! ## One point, over blocks of literal types -/

/-- Frame `q` of tile `T`. -/
abbrev frame (T : Fin 25) (q : Fin 16) : Fin 400 := ⟨T.val * 16 + q.val, by have := T.isLt; have := q.isLt; omega⟩

/-- A target step among the 104 padded ones. -/
abbrev step (u : Fin 100) : Fin 104 := ⟨u.val, by have := u.isLt; omega⟩

/-- If the four blocks the body is handed are the tile's frames, the entry's steps (padded), the transposed
    weights and the bias row, what it stores at `(0, q, u, v)` for a step `u < 100` is the joint network at
    `(p, 16 T + q, u, v)`. -/
theorem point_eq (src : Src.Idx → EReal) (tgt : Tgt.Idx → EReal) (W : Wt.Idx → EReal) (b : Bias.Idx → EReal)
    (x0 : Vec Ideal S1x16x512 .f32) (x1 : Vec Ideal S1x104x512 .f32) (x2 : Vec Ideal S512x1024 .bf16) (x3 : Vec Ideal S1x1024 .f32)
    (p : Fin 4) (T : Fin 25)
    (h0 : ∀ (q : Fin 16) (k : Fin 512), x0 (ix3 (0 : Fin 1) q k) = src (ix3 p (frame T q) k))
    (h1 : ∀ (u : Fin 100) (k : Fin 512), x1 (ix3 (0 : Fin 1) (step u) k) = tgt (ix3 p u k))
    (h2 : ∀ (k : Fin 512) (v : Fin 1024), x2 (ix2 k v) = W (ix2 v k))
    (h3 : ∀ v : Fin 1024, x3 (ix2 (0 : Fin 1) v) = b (ix1 v))
    (q : Fin 16) (u : Fin 100) (v : Fin 1024) :
    k0_pay1 (F := Ideal) x0 x1 x2 x3 (ix4 (0 : Fin 1) q (step u) v) = jointAt src tgt W b p (frame T q) u v := by
  rw [Body.stored_at, h3]
  unfold jointAt
  refine congrArg (· + b (ix1 v)) (Finset.sum_congr rfl fun k _ => ?_)
  rw [h0, h1, h2]

/-! ## The index maps, decided over the 100 grid points -/

/-- The source window moves with the result's on the batch and frame axes; the target window on the batch axis;
    the weights and the bias stay; the result's block index is `(p, T, 0, 0)` with `p < 4`, `T < 25`. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) < 4 ∧ win0_4.index t (1 : Fin 4) < 25
    ∧ win0_4.index t (2 : Fin 4) = 0 ∧ win0_4.index t (3 : Fin 4) = 0 :=
  (by decide +kernel : ∀ t : Fin grid0.N, _)

/-- What a point writes back of its block: all of it but the four pad steps. -/
theorem xsize_facts : ∀ t : Fin cfg0.N,
    win0_4.xsize (grid0.coords t) (0 : Fin 4) = 1 ∧ win0_4.xsize (grid0.coords t) (1 : Fin 4) = 16
    ∧ win0_4.xsize (grid0.coords t) (2 : Fin 4) = 100 ∧ win0_4.xsize (grid0.coords t) (3 : Fin 4) = 1024 :=
  (by decide +kernel : ∀ t : Fin grid0.N, _)

/-- Every (batch entry, tile) is some point's. -/
theorem idx_onto : ∀ (p : Fin 4) (T : Fin 25), ∃ t : Fin cfg0.N, win0_4.index t = ![p.val, T.val, 0, 0] :=
  (by decide +kernel : ∀ (p : Fin 4) (T : Fin 25), ∃ t : Fin grid0.N, win0_4.index t = ![p.val, T.val, 0, 0])

/-! ## The blocks the body is handed -/

variable (m : (ℓ : Loc nD τ sig) → Buf (Elt Ideal) ℓ) (ρ : Dev nD → PrngReg)

/-- The source array as launched, at its literal type. -/
abbrev srcArg (c : Dev nD) : S4x400x512.Idx → EReal := m ((c : Thread nD τ).loc main_arg0)

/-- The joint network of the arguments as launched: what the result array is shown to hold. -/
abbrev result (c : Dev nD) : S4x400x100x1024.Idx → EReal :=
  joint (srcArg m c) (Entry.tgtArg m c) (Entry.wArg m c) (Entry.bArg m c)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The source block at the point `(p, T)`: frame `q` of the block is frame `16 T + q` of entry `p`. -/
theorem frames_blk (c : Dev nD) (t : Fin cfg0.N) (p : Fin 4) (T : Fin 25)
    (hp : win0_4.index t (0 : Fin 4) = p.val) (hT : win0_4.index t (1 : Fin 4) = T.val) (q : Fin 16) (k : Fin 512) :
    iblk m c 0 t (ix3 (0 : Fin 1) q k) = srcArg m c (ix3 p (frame T q) k) := by
  obtain ⟨e0, e1, e2, -⟩ := idx_facts t
  show V m c main_arg0 (((cfg0.win 0).blk t).view.emb (ix3 (0 : Fin 1) q k)) = _
  rw [V_main_arg0]
  have e : ((cfg0.win 0).blk t).view.emb (ix3 (0 : Fin 1) q k) = ix3 p (frame T q) k := by
    funext a; apply Fin.ext
    match a with
    | ⟨0, _⟩ => show win0_0.index t (0 : Fin 3) * 1 + 1 * 0 = p.val; omega
    | ⟨1, _⟩ => show win0_0.index t (1 : Fin 3) * 16 + 1 * q.val = T.val * 16 + q.val; omega
    | ⟨2, _⟩ => show win0_0.index t (2 : Fin 3) * 512 + 1 * k.val = k.val; omega
  rw [e]

/-- The target block at a point of entry `p`: step `u < 100` of the block is step `u` of entry `p`. -/
theorem steps_blk (c : Dev nD) (t : Fin cfg0.N) (p : Fin 4) (hp : win0_4.index t (0 : Fin 4) = p.val) (u : Fin 100) (k : Fin 512) :
    iblk m c 1 t (ix3 (0 : Fin 1) (step u) k) = Entry.tgtArg m c (ix3 p u k) := by
  obtain ⟨-, -, -, e0, e1, e2, -⟩ := idx_facts t
  show V m c main_v0 (((cfg0.win 1).blk t).view.emb (ix3 (0 : Fin 1) (step u) k)) = _
  have e : ((cfg0.win 1).blk t).view.emb (ix3 (0 : Fin 1) (step u) k) = ix3 p (step u) k := by
    funext a; apply Fin.ext
    match a with
    | ⟨0, _⟩ => show win0_1.index t (0 : Fin 3) * 1 + 1 * 0 = p.val; omega
    | ⟨1, _⟩ => show win0_1.index t (1 : Fin 3) * 104 + 1 * u.val = u.val; omega
    | ⟨2, _⟩ => show win0_1.index t (2 : Fin 3) * 512 + 1 * k.val = k.val; omega
  rw [e]
  exact Entry.padded_at m c p u k

/-- The weights block is all the transposed weights. -/
theorem weights_blk (c : Dev nD) (t : Fin cfg0.N) (k : Fin 512) (v : Fin 1024) :
    iblk m c 2 t (ix2 k v) = Entry.wArg m c (ix2 v k) := by
  obtain ⟨-, -, -, -, -, -, e0, e1, -⟩ := idx_facts t
  show V m c main_v2 (((cfg0.win 2).blk t).view.emb (ix2 k v)) = _
  have e : ((cfg0.win 2).blk t).view.emb (ix2 k v) = ix2 k v := by
    funext a; apply Fin.ext
    match a with
    | ⟨0, _⟩ => show win0_2.index t (0 : Fin 2) * 512 + 1 * k.val = k.val; omega
    | ⟨1, _⟩ => show win0_2.index t (1 : Fin 2) * 1024 + 1 * v.val = v.val; omega
  rw [e]
  exact Entry.weights_at m c k v

/-- The bias block is the bias row. -/
theorem bias_blk (c : Dev nD) (t : Fin cfg0.N) (v : Fin 1024) :
    iblk m c 3 t (ix2 (0 : Fin 1) v) = Entry.bArg m c (ix1 v) := by
  obtain ⟨-, -, -, -, -, -, -, -, e0, e1, -⟩ := idx_facts t
  show V m c main_v3 (((cfg0.win 3).blk t).view.emb (ix2 (0 : Fin 1) v)) = _
  have e : ((cfg0.win 3).blk t).view.emb (ix2 (0 : Fin 1) v) = ix2 (0 : Fin 1) v := by
    funext a; apply Fin.ext
    match a with
    | ⟨0, _⟩ => show win0_3.index t (0 : Fin 2) * 1 + 1 * 0 = 0; omega
    | ⟨1, _⟩ => show win0_3.index t (1 : Fin 2) * 1024 + 1 * v.val = v.val; omega
  rw [e]
  exact Entry.biasRow_at m c v

/-! ## What a point writes back -/

/-- Point `t` writes back its block of the joint network of the arguments. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz4]
  simp only [View.ld_unit_zero (S := S1x16x512) hz3, View.ld_unit_zero (S := S1x104x512) hz3,
    View.ld_unit_zero (S := S512x1024) hz2, View.ld_unit_zero (S := S1x1024) hz2]
  obtain ⟨-, -, -, -, -, -, -, -, -, -, b0, b1, e2, e3⟩ := idx_facts t
  obtain ⟨s0, s1, s2, s3⟩ := xsize_facts t
  funext j
  have hj0 : (j 0).val < win0_4.xsize (grid0.coords t) (0 : Fin 4) := (j 0).isLt
  have hj1 : (j 1).val < win0_4.xsize (grid0.coords t) (1 : Fin 4) := (j 1).isLt
  have hj2 : (j 2).val < win0_4.xsize (grid0.coords t) (2 : Fin 4) := (j 2).isLt
  have hj3 : (j 3).val < win0_4.xsize (grid0.coords t) (3 : Fin 4) := (j 3).isLt
  rw [s0] at hj0; rw [s1] at hj1; rw [s2] at hj2; rw [s3] at hj3
  show k0_pay1 (F := Ideal) (iblk m c 0 t) (iblk m c 1 t) (iblk m c 2 t) (iblk m c 3 t) ((cfg0.win 4).xinj (grid0.coords t) j)
    = result m c (((cfg0.win 4).blk t).view.emb j)
  have ej : (cfg0.win 4).xinj (grid0.coords t) j
      = ix4 (0 : Fin 1) (⟨(j 1).val, hj1⟩ : Fin 16) (step ⟨(j 2).val, hj2⟩) (⟨(j 3).val, hj3⟩ : Fin 1024) := by
    funext a; apply Fin.ext
    match a with
    | ⟨0, _⟩ => show (j 0).val = 0; omega
    | ⟨1, _⟩ => rfl
    | ⟨2, _⟩ => rfl
    | ⟨3, _⟩ => rfl
  have ei : ((cfg0.win 4).blk t).view.emb j
      = ix4 (⟨win0_4.index t (0 : Fin 4), b0⟩ : Fin 4) (frame ⟨win0_4.index t (1 : Fin 4), b1⟩ ⟨(j 1).val, hj1⟩)
          (⟨(j 2).val, hj2⟩ : Fin 100) (⟨(j 3).val, hj3⟩ : Fin 1024) := by
    funext a; apply Fin.ext
    match a with
    | ⟨0, _⟩ => show win0_4.index t (0 : Fin 4) * 1 + 1 * (j 0).val = win0_4.index t (0 : Fin 4); omega
    | ⟨1, _⟩ => show win0_4.index t (1 : Fin 4) * 16 + 1 * (j 1).val = win0_4.index t (1 : Fin 4) * 16 + (j 1).val; omega
    | ⟨2, _⟩ => show win0_4.index t (2 : Fin 4) * 104 + 1 * (j 2).val = (j 2).val; omega
    | ⟨3, _⟩ => show win0_4.index t (3 : Fin 4) * 1024 + 1 * (j 3).val = (j 3).val; omega
  rw [ej, ei]
  show _ = joint (srcArg m c) (Entry.tgtArg m c) (Entry.wArg m c) (Entry.bArg m c) _
  rw [joint_ix4]
  exact point_eq (srcArg m c) (Entry.tgtArg m c) (Entry.wArg m c) (Entry.bArg m c)
    (iblk m c 0 t) (iblk m c 1 t) (iblk m c 2 t) (iblk m c 3 t)
    ⟨win0_4.index t (0 : Fin 4), b0⟩ ⟨win0_4.index t (1 : Fin 4), b1⟩
    (frames_blk m c t ⟨win0_4.index t (0 : Fin 4), b0⟩ ⟨win0_4.index t (1 : Fin 4), b1⟩ rfl rfl)
    (steps_blk m c t ⟨win0_4.index t (0 : Fin 4), b0⟩ rfl) (weights_blk m c t) (bias_blk m c t)
    ⟨(j 1).val, hj1⟩ ⟨(j 2).val, hj2⟩ ⟨(j 3).val, hj3⟩

/-! ## The blocks cover the result -/

/-- An index of the result is under point `t`'s written block iff each coordinate is in the block's written range. -/
theorem mem_blk (t : Fin cfg0.N) (i : S4x400x100x1024.Idx) :
    i ∈ ((cfg0.win 4).blk t).view.set ↔ ∀ a : Fin 4, win0_4.index t a * S1x16x104x1024.size a ≤ (i a).val
      ∧ (i a).val < win0_4.index t a * S1x16x104x1024.size a + win0_4.xsize (grid0.coords t) a := by
  show i ∈ ((View.whole main_v4).slice (win0_4.rect t)).set ↔ _
  rw [View.set_slice_whole, Rect.mem_set_unit]
  exact Iff.rfl

/-- Every index `(p, q, u, v)` of the result is under the point `(p, q / 16)`. -/
theorem covered (i : S4x400x100x1024.Idx) :
    ∃ t : Fin cfg0.N, (cfg0.win 4).flush t = true ∧ i ∈ ((cfg0.win 4).blk t).view.set := by
  have hi0 : (i 0).val < 4 := (i 0).isLt
  have hi1 : (i 1).val < 400 := (i 1).isLt
  have hi2 : (i 2).val < 100 := (i 2).isLt
  have hi3 : (i 3).val < 1024 := (i 3).isLt
  obtain ⟨t, ht⟩ := idx_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  obtain ⟨s0, s1, s2, s3⟩ := xsize_facts t
  refine ⟨t, flush0_4 t, ?_⟩
  rw [mem_blk]
  intro a
  match a with
  | ⟨0, _⟩ =>
    show win0_4.index t (0 : Fin 4) * 1 ≤ (i 0).val ∧ (i 0).val < win0_4.index t (0 : Fin 4) * 1 + win0_4.xsize (grid0.coords t) (0 : Fin 4)
    rw [s0]; omega
  | ⟨1, _⟩ =>
    show win0_4.index t (1 : Fin 4) * 16 ≤ (i 1).val ∧ (i 1).val < win0_4.index t (1 : Fin 4) * 16 + win0_4.xsize (grid0.coords t) (1 : Fin 4)
    rw [s1]; omega
  | ⟨2, _⟩ =>
    show win0_4.index t (2 : Fin 4) * 104 ≤ (i 2).val ∧ (i 2).val < win0_4.index t (2 : Fin 4) * 104 + win0_4.xsize (grid0.coords t) (2 : Fin 4)
    rw [s2]; omega
  | ⟨3, _⟩ =>
    show win0_4.index t (3 : Fin 4) * 1024 ≤ (i 3).val ∧ (i 3).val < win0_4.index t (3 : Fin 4) * 1024 + win0_4.xsize (grid0.coords t) (3 : Fin 4)
    rw [s3]; omega

/-! ## The array after the run -/

/-- After the last write-back the result array holds the joint network of the arguments. -/
theorem final (c : Dev nD) : (dats m 0 c).arrAt 4 cfg0.N = result m c :=
  (dats m 0 c).arrAt_eq_of_cover 4 (result m c) (fun t _ => flushed_eq m c t) covered

/-- The kernel's run: every weakly fair execution terminates with the result array at the joint network of the
    arguments and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Joiner.Blocks

end
-- ==== Proof.lean ====
/-
  A transducer's joint network: a tiled kernel against its reference, equal over the extended reals.

  Both programs compute, for a batch entry `p`, an encoder frame `q`, a predictor step `u` and a vocabulary
  entry `v`,

      out[p, q, u, v] = (∑ k < 512, tanh (src[p, q, k] + tgt[p, u, k]) · W[v, k]) + b[v]

  and hand back the two length arrays untouched.

  The reference broadcasts and adds the two encodings, applies `tanh`, contracts with `W` and adds the bias
  (Proof/RefJoint.lean, over the reference's run read one operation at a time). The kernel pads the 100 target
  steps to 104, transposes `W` and narrows it to bf16, and runs a grid of 4 × 25 points, each multiplying the
  `tanh` of 16 frames against all 104 steps by the transposed weights in one matrix product and writing back the
  100 real steps of its block (Proof/Body.lean: the stored block at an index; Proof/Entry.lean: the arrays the
  region finds; Proof/Blocks.lean: the blocks assemble to the whole array). On the extended reals the narrowing
  is the identity, the product into a zero accumulator is the plain sum, and the pad steps are never written:
  the two results are one function of the arguments (Proof/Joint.lean), and no finiteness is used.

  The claims: each program runs and leaves its arguments unchanged; the idealized kernel is the kernel's own
  text (no rewrite was applied); the idealized kernel and the idealized reference end with equal results.
-/
import proofs.«414970_j11940009083043_3_alg».proof.Defs
import proofs.«414970_j11940009083043_3_alg».proof.Proof.Gen.Kernel
import proofs.«414970_j11940009083043_3_alg».proof.Proof.Gen.Kernel.Skeleton
import proofs.«414970_j11940009083043_3_alg».proof.Proof.Gen.Kernel.Launch
import proofs.«414970_j11940009083043_3_alg».proof.Proof.Gen.Kernel.Points
import proofs.«414970_j11940009083043_3_alg».proof.Proof.Gen.Kernel.Frame
import proofs.«414970_j11940009083043_3_alg».proof.Proof.Gen.KernelIdeal
import proofs.«414970_j11940009083043_3_alg».proof.Proof.Gen.KernelIdeal.Skeleton
import proofs.«414970_j11940009083043_3_alg».proof.Proof.Gen.KernelIdeal.Launch
import proofs.«414970_j11940009083043_3_alg».proof.Proof.Gen.KernelIdeal.Points
import proofs.«414970_j11940009083043_3_alg».proof.Proof.Gen.KernelIdeal.Frame
import proofs.«414970_j11940009083043_3_alg».proof.Proof.Gen.ReferenceIdeal
import proofs.«414970_j11940009083043_3_alg».proof.Proof.Gen.Pre_finite_inputs
import proofs.«414970_j11940009083043_3_alg».proof.Proof.Gen.KernelIdeal.Value
import proofs.«414970_j11940009083043_3_alg».proof.Proof.Gen.ReferenceIdeal.Run
import proofs.«414970_j11940009083043_3_alg».proof.Proof.Gen.ReferenceIdeal.Read
import proofs.«414970_j11940009083043_3_alg».proof.Proof.Joint
import proofs.«414970_j11940009083043_3_alg».proof.Proof.RefJoint
import proofs.«414970_j11940009083043_3_alg».proof.Proof.Body
import proofs.«414970_j11940009083043_3_alg».proof.Proof.Entry
import proofs.«414970_j11940009083043_3_alg».proof.Proof.Blocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the arguments both idealized programs end with the result array at the joint
    network of the arguments, and with the two length arrays as they were. -/
theorem algebraic : Cert.algebraic_KernelIdeal_ReferenceIdeal := by
  intro m ρ m' ρ' _ hagree
  refine ⟨fun c => Cert.Joiner.Blocks.result m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3), ?_, ?_⟩
  · exact (θ_run Cert.KernelIdeal.defs _ _).mono
      (fun _ h c => ⟨(h c).1, (h c).2.2.1, (h c).2.2.2.2.1, (h c).2⟩) (Cert.Joiner.Blocks.run m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v9_eq, Cert.Joiner.Ref.val_eq_joint, (hagree c).1, (hagree c).2.2.1,
        (hagree c).2.2.2.2.1, (hagree c).2.2.2.2.2]
    · exact (h c).2.1.trans (hagree c).2.1
    · exact (h c).2.2.1.trans (hagree c).2.2.2.1

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
